-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S_ : Shape := ⟨0, ![]⟩

class Facts : Prop where
  bcast_S_S1024x128x128 : S_.BroadcastsInDim S1024x128x128 (![] : Fin 0 → Fin S1024x128x128.rank)
  reducesTo_S1024x128x128_S_d0_1_2 : S1024x128x128.ReducesTo [0, 1, 2] S_
  h_S_ : 0 < S_.numel
  bcast_S_S1024x128x512 : S_.BroadcastsInDim S1024x128x512 (![] : Fin 0 → Fin S1024x128x512.rank)
  reducesTo_S1024x128x512_S_d0_1_2 : S1024x128x512.ReducesTo [0, 1, 2] S_
  bcast_S_S128x512 : S_.BroadcastsInDim S128x512 (![] : Fin 0 → Fin S128x512.rank)
  reducesTo_S128x512_S_d0_1 : S128x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512 .f32) (main_arg8 : FVec F S128x512 .f32) (main_arg9 : FVec F S512x512 .f32) (main_arg10 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S128x512 .f32 := Host.absf main_arg8
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S128x512 .f32) (main_arg6 : FVec F S512x512 .f32) (main_arg7 : FVec F S512 .f32) (main_arg8 : FVec F S128x512 .f32) (main_arg9 : FVec F S512x512 .f32) (main_arg10 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x512 .f32 := Host.absf main_arg5
  let main_cst_8 : FVec F S_ .f32 := constant S_ .f32 0x7F800000#32
  let main_v25 : FVec F S128x512 .f32 := broadcastInDim S128x512 ![] bcast_S_S128x512 main_cst_8
  let main_v26 : IVec S128x512 1 := cmpf .olt main_v24 main_v25
  let main_c_9 : IVec S_ 1 := constantI S_ 1 1#1
  let main_v27 : IVec S_ 1 := (fun x v => Host.reduce IntOp.andi x v reducesTo_S128x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1024x128x128 .f32) (main_arg1 : FVec F S1024x128x512 .f32) (main_arg2 : FVec F S128x512 .f32) (main_arg3 : FVec F S512x512 .f32) (main_arg4 : FVec F S512 .f32) (main_arg5 : FVec F S128x512 .f32) (main_arg6 : FVec F S512x512 .f32) (main_arg7 : FVec F S512 .f32) (main_arg8 : FVec F S128x512 .f32) (main_arg9 : FVec F S512x512 .f32) (main_arg10 : FVec F S512 .f32) : IVec S_ 1 :=
  let main_v0 : FVec F S1024x128x128 .f32 := Host.absf main_arg0
  let main_cst : FVec F S_ .f32 := constant S_ .f32 0x7F800000#32
  let main_v1 : FVec F S1024x128x128 .f32 := broadcastInDim S1024x128x128 ![] bcast_S_S1024x128x128 main_cst
  let main_v2 : IVec S1024x128x128 1 := cmpf .olt main_v0 main_v1
  let main_c : IVec S_ 1 := constantI S_ 1 1#1
  let main_v3 : IVec S_ 1 := (fun x v => Host.reduce IntOp.andi x v reducesTo_S1024x128x128_S_d0_1_2 h_S_) main_v2 main_c
  let main_v4 : FVec F S1024x128x512 .f32 := Host.absf main_arg1
  let main_cst_0 : FVec F S_ .f32 := constant S_ .f32 0x7F800000#32
  let main_v5 : FVec F S1024x128x512 .f32 := broadcastInDim S1024x128x512 ![] bcast_S_S1024x128x512 main_cst_0
  let main_v6 : IVec S1024x128x512 1 := cmpf .olt main_v4 main_v5
  let main_c_1 : IVec S_ 1 := constantI S_ 1 1#1
  let main_v7 : IVec S_ 1 := (fun x v => Host.reduce IntOp.andi x v reducesTo_S1024x128x512_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_v13 main_v16
-- ==== Kernel.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S131072x128 : Shape := ⟨2, ![131072, 128]⟩
abbrev S131072x512 : Shape := ⟨2, ![131072, 512]⟩
abbrev S1024x128 : Shape := ⟨2, ![1024, 128]⟩
abbrev S1024x512 : Shape := ⟨2, ![1024, 512]⟩
abbrev S1x512 : Shape := ⟨2, ![1, 512]⟩

abbrev nBuf : Space → Nat
  | .hbm => 21
  | .vmem => 15
  | .smem => 0
  | _ => 0

abbrev bufTy : (tb : Table) → Fin (tcTables nBuf tb) → BufTy
  | .hbm, ⟨0, _⟩ => ⟨S1024x128x128, .f32⟩
  | .hbm, ⟨1, _⟩ => ⟨S1024x128x512, .f32⟩
  | .hbm, ⟨2, _⟩ => ⟨S128x512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S512x512, .f32⟩
  | .hbm, ⟨7, _⟩ => ⟨S512, .f32⟩
  | .hbm, ⟨8, _⟩ => ⟨S128x512, .f32⟩
  | .hbm, ⟨9, _⟩ => ⟨S512x512, .f32⟩
  | .hbm, ⟨10, _⟩ => ⟨S512, .f32⟩
  | .hbm, ⟨11, _⟩ => ⟨S131072x128, .f32⟩
  | .hbm, ⟨12, _⟩ => ⟨S131072x512, .f32⟩
  | .hbm, ⟨13, _⟩ => ⟨S128x512, .bf16⟩
  | .hbm, ⟨14, _⟩ => ⟨S512x512, .bf16⟩
  | .hbm, ⟨15, _⟩ => ⟨S128x512, .bf16⟩
  | .hbm, ⟨16, _⟩ => ⟨S512x512, .bf16⟩
  | .hbm, ⟨17, _⟩ => ⟨S128x512, .bf16⟩
  | .hbm, ⟨18, _⟩ => ⟨S512x512, .bf16⟩
  | .hbm, ⟨19, _⟩ => ⟨S131072x512, .f32⟩
  | .hbm, ⟨20, _⟩ => ⟨S1024x128x512, .f32⟩
  | .local _ .vmem, ⟨0, _⟩ => ⟨S1024x128, .f32⟩
  | .local _ .vmem, ⟨1, _⟩ => ⟨S1024x128, .f32⟩
  | .local _ .vmem, ⟨2, _⟩ => ⟨S1024x512, .f32⟩
  | .local _ .vmem, ⟨3, _⟩ => ⟨S1024x512, .f32⟩
  | .local _ .vmem, ⟨4, _⟩ => ⟨S128x512, .bf16⟩
  | .local _ .vmem, ⟨5, _⟩ => ⟨S512x512, .bf16⟩
  | .local _ .vmem, ⟨6, _⟩ => ⟨S512, .f32⟩
  | .local _ .vmem, ⟨7, _⟩ => ⟨S128x512, .bf16⟩
  | .local _ .vmem, ⟨8, _⟩ => ⟨S512x512, .bf16⟩
  | .local _ .vmem, ⟨9, _⟩ => ⟨S512, .f32⟩
  | .local _ .vmem, ⟨10, _⟩ => ⟨S128x512, .bf16⟩
  | .local _ .vmem, ⟨11, _⟩ => ⟨S512x512, .bf16⟩
  | .local _ .vmem, ⟨12, _⟩ => ⟨S512, .f32⟩
  | .local _ .vmem, ⟨13, _⟩ => ⟨S1024x512, .f32⟩
  | .local _ .vmem, ⟨14, _⟩ => ⟨S1024x512, .f32⟩
  | _, _ => ⟨S1024x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S1024x128x128_S131072x128 : S1024x128x128.ShapeCasts S131072x128
  shapeCasts_S1024x128x512_S131072x512 : S1024x128x512.ShapeCasts S131072x512
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  shapeCasts_S131072x512_S1024x128x512 : S131072x512.ShapeCasts S1024x128x512
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S131072x128.size a
  hwx0_0 : ∀ i : grid0.Coords, EltTy.bits .f32 = 32 ∨ (Rect.block (s := S131072x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S131072x512.size a
  hwx0_1 : ∀ i : grid0.Coords, EltTy.bits .f32 = 32 ∨ (Rect.block (s := S131072x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .bf16 = 32 ∨ (Rect.block (s := S128x512) S128x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x512.size a ≤ S128x512.size a
  hwx0_8 : ∀ i : grid0.Coords, EltTy.bits .bf16 = 32 ∨ (Rect.block (s := S128x512) S128x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S512x512.size a
  hwx0_9 : ∀ i : grid0.Coords, EltTy.bits .bf16 = 32 ∨ (Rect.block (s := S512x512) S512x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S131072x512.size a
  hwx0_11 : ∀ i : grid0.Coords, EltTy.bits .f32 = 32 ∨ (Rect.block (s := S131072x512) S1024x512.size (cc0_transform_11 i) (hinb0_11 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S128x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S512x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x128x128 : Shape := ⟨3, ![1024, 128, 128]⟩
abbrev S1024x128x512 : Shape := ⟨3, ![1024, 128, 512]⟩
abbrev S128x512 : Shape := ⟨2, ![128, 512]⟩
abbrev S512x512 : Shape := ⟨2, ![512, 512]⟩
abbrev S512 : Shape := ⟨1, ![512]⟩
abbrev S131072x128 : Shape := ⟨2, ![131072, 128]⟩
abbrev S131072x512 : Shape := ⟨2, ![131072, 512]⟩
abbrev S1x512 : Shape := ⟨2, ![1, 512]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S1024x128x128, .f32⟩
  | .hbm, ⟨1, _⟩ => ⟨S1024x128x512, .f32⟩
  | .hbm, ⟨2, _⟩ => ⟨S128x512, .f32⟩
  | .hbm, ⟨3, _⟩ => ⟨S512x512, .f32⟩
  | .hbm, ⟨4, _⟩ => ⟨S512, .f32⟩
  | .hbm, ⟨5, _⟩ => ⟨S128x512, .f32⟩
  | .hbm, ⟨6, _⟩ => ⟨S512x512, .f32⟩
  | .hbm, ⟨7, _⟩ => ⟨S512, .f32⟩
  | .hbm, ⟨8, _⟩ => ⟨S128x512, .f32⟩
  | .hbm, ⟨9, _⟩ => ⟨S512x512, .f32⟩
  | .hbm, ⟨10, _⟩ => ⟨S512, .f32⟩
  | .hbm, ⟨11, _⟩ => ⟨S131072x128, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S1x512, .f32⟩
  | .hbm, ⟨17, _⟩ => ⟨S131072x512, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072x512, .f32⟩
  | .hbm, ⟨23, _⟩ => ⟨S131072x512, .f32⟩
  | .hbm, ⟨24, _⟩ => ⟨S_, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S1x512, .f32⟩
  | .hbm, ⟨31, _⟩ => ⟨S131072x512, .f32⟩
  | .hbm, ⟨32, _⟩ => ⟨S131072x512, .f32⟩
  | .hbm, ⟨33, _⟩ => ⟨S131072x512, .f32⟩
  | .hbm, ⟨34, _⟩ => ⟨S131072x512, .f32⟩
  | .hbm, ⟨35, _⟩ => ⟨S_, .f32⟩
  | .hbm, ⟨36, _⟩ => ⟨S131072x512, .f32⟩
  | .hbm, ⟨37, _⟩ => ⟨S131072x512, .f32⟩
  | .hbm, ⟨38, _⟩ => ⟨S_, .f32⟩
  | .hbm, ⟨39, _⟩ => ⟨S131072x512, .f32⟩
  | .hbm, ⟨40, _⟩ => ⟨S131072x512, .f32⟩
  | .hbm, ⟨41, _⟩ => ⟨S131072x512, .f32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S1x512, .f32⟩
  | .hbm, ⟨46, _⟩ => ⟨S131072x512, .f32⟩
  | .hbm, ⟨47, _⟩ => ⟨S131072x512, .f32⟩
  | .hbm, ⟨48, _⟩ => ⟨S131072x512, .f32⟩
  | .hbm, ⟨49, _⟩ => ⟨S_, .f32⟩
  | .hbm, ⟨50, _⟩ => ⟨S131072x512, .f32⟩
  | .hbm, ⟨51, _⟩ => ⟨S131072x512, .f32⟩
  | .hbm, ⟨52, _⟩ => ⟨S131072x512, .f32⟩
  | .hbm, ⟨53, _⟩ => ⟨S131072x512, .f32⟩
  | .hbm, ⟨54, _⟩ => ⟨S131072x512, .f32⟩
  | .hbm, ⟨55, _⟩ => ⟨S1024x128x512, .f32⟩
  | _, _ => ⟨S1024x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  shapeCasts_S1024x128x128_S131072x128 : S1024x128x128.ShapeCasts S131072x128
  shapeCasts_S1024x128x512_S131072x512 : S1024x128x512.ShapeCasts S131072x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  shapeCasts_S131072x512_S1024x128x512 : S131072x512.ShapeCasts S1024x128x512
  dot_S131072x128_S128x512_S131072x512_1_0_0_1_n_n_wf : DotDims.WF S131072x128 S128x512 S131072x512 [1] [0] [0] [1] [] []
  dot_S131072x512_S512x512_S131072x512_1_0_0_1_n_n_wf : DotDims.WF S131072x512 S512x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.GruCell.lean ====
/-
  The gated recurrent cell, one row at a time, on the extended reals.

  A row of the flattened input `x` (128 attributes) and the same row of the flattened state `h` (512 hidden
  units) determine the same row of the result and nothing else does:

    z  = σ (x · W_z + h · U_z + b_z)          the update gate
    r  = σ (x · W_r + h · U_r + b_r)          the reset gate
    h~ = tanh (x · W_h + (r ∘ h) · U_h + b_h) the candidate state
    h' = (1 - z) ∘ h + z ∘ h~

  where `·` is a row times a matrix (a plain sum over the contracted coordinate), `∘` is entry by entry, and
  `σ t = 1 / (1 + e^(-t))` with the extended reals' conventions at the infinities. The constant `1` of the last line
  is kept as the word that encodes it: both programs spell it with the same word, so its value is never needed there.
  Its value IS needed once: a program that spells `σ` out as a quotient writes the numerator and the first summand of
  the denominator with that word (`sigmoid_spelled_out`).
-/
import Idealize.ShloMosaic.Lib.ValueIdx
import Idealize.ShloMosaic.Lib.IdealHost

noncomputable section

open scoped BigOperators

namespace Cert.Gru

open Idealize.ShloMosaic Idealize.ShloMosaic.ValueIdx

/-- What a gate applies its nonlinearity to, at hidden unit `j`: the row of `x` against column `j` of `w`, plus the
    row of `h` against column `j` of `u`, plus the bias at `j`. -/
def pre (xrow : Fin 128 → EReal) (hrow : Fin 512 → EReal)
    (w : (⟨2, ![128, 512]⟩ : Shape).Idx → EReal) (u : (⟨2, ![512, 512]⟩ : Shape).Idx → EReal)
    (b : (⟨1, ![512]⟩ : Shape).Idx → EReal) (j : Fin 512) : EReal :=
  (∑ k : Fin 128, xrow k * w (ix2 k j)) + (∑ k : Fin 512, hrow k * u (ix2 k j)) + b (ix1 j)

/-- The new state of one row at hidden unit `j`. The candidate's recurrent term contracts the reset gate times the old
    state, so it reads every hidden unit of the row's reset gate. -/
def cell (xrow : Fin 128 → EReal) (hrow : Fin 512 → EReal)
    (wz : (⟨2, ![128, 512]⟩ : Shape).Idx → EReal) (uz : (⟨2, ![512, 512]⟩ : Shape).Idx → EReal) (bz : (⟨1, ![512]⟩ : Shape).Idx → EReal)
    (wr : (⟨2, ![128, 512]⟩ : Shape).Idx → EReal) (ur : (⟨2, ![512, 512]⟩ : Shape).Idx → EReal) (br : (⟨1, ![512]⟩ : Shape).Idx → EReal)
    (wh : (⟨2, ![128, 512]⟩ : Shape).Idx → EReal) (uh : (⟨2, ![512, 512]⟩ : Shape).Idx → EReal) (bh : (⟨1, ![512]⟩ : Shape).Idx → EReal)
    (j : Fin 512) : EReal :=
  (Ideal.ofBits .f32 0x3F800000#32 - Ideal.logistic (pre xrow hrow wz uz bz j)) * hrow j
    + Ideal.logistic (pre xrow hrow wz uz bz j)
      * Ideal.tanh (pre xrow (fun k => Ideal.logistic (pre xrow hrow wr ur br k) * hrow k) wh uh bh j)

/-- The whole flattened result: entry `(p, j)` is the cell of row `p` at hidden unit `j`. -/
def rows (X : (⟨2, ![131072, 128]⟩ : Shape).Idx → EReal) (H : (⟨2, ![131072, 512]⟩ : Shape).Idx → EReal)
    (wz : (⟨2, ![128, 512]⟩ : Shape).Idx → EReal) (uz : (⟨2, ![512, 512]⟩ : Shape).Idx → EReal) (bz : (⟨1, ![512]⟩ : Shape).Idx → EReal)
    (wr : (⟨2, ![128, 512]⟩ : Shape).Idx → EReal) (ur : (⟨2, ![512, 512]⟩ : Shape).Idx → EReal) (br : (⟨1, ![512]⟩ : Shape).Idx → EReal)
    (wh : (⟨2, ![128, 512]⟩ : Shape).Idx → EReal) (uh : (⟨2, ![512, 512]⟩ : Shape).Idx → EReal) (bh : (⟨1, ![512]⟩ : Shape).Idx → EReal) :
    (⟨2, ![131072, 512]⟩ : Shape).Idx → EReal :=
  fun i => cell (fun k => X (ix2 (i 0) k)) (fun k => H (ix2 (i 0) k)) wz uz bz wr ur br wh uh bh (i 1)

/-- The logistic function spelled out as a quotient, the two ones written as the word that encodes one, is the
    logistic function: on every extended real, the infinities included, since that quotient is its definition. -/
theorem sigmoid_spelled_out (t : EReal) :
    Ideal.div (Ideal.ofBits .f32 0x3F800000#32) (Ideal.ofBits .f32 0x3F800000#32 + Ideal.exp (-t)) = Ideal.logistic t := by
  rw [Ideal.ofBits_one_f32]
  rfl

end Cert.Gru

end
-- ==== Proof.RefRows.lean ====
/-
  The reference computes the gated recurrent cell row by row.

  Read one operation at a time, entry `(p, j)` of the reference's flattened result is: the three matrix products as
  sums over the contracted coordinate, each along row `p` of the flattened input or state and down column `j` of a
  weight matrix; the biases read at `j`; the two gates spelled out as `1 / (1 + e^(-t))`; the hyperbolic tangent; and
  the closing combination. The sum inside the candidate state runs over the hidden units `k` of row `p`'s reset gate
  times the old state, so the reset gate is read there at `(p, k)`. That is the cell of row `p` at `j`: the index
  functions of the products and broadcasts are the coordinate constructors, the host's operations are the extended
  reals', and the spelled-out quotient is the logistic function.
-/
import proofs.«115552_j52450140619362_1_alg».proof.Proof.Gen.ReferenceIdeal.Read
import proofs.«115552_j52450140619362_1_alg».proof.Proof.GruCell

noncomputable section

open scoped BigOperators

namespace Cert.Gru.Ref

open Cert.ReferenceIdeal Cert.ReferenceIdeal.Gen Cert.ReferenceIdeal.Read Idealize.ShloMosaic Idealize.ShloMosaic.ValueIdx

/-- The reference's flattened result, before its closing reshape, is `rows` of the flattened input and state and the
    nine parameter arrays. -/
theorem flat_eq (x0 : (⟨S1024x128x128, .f32⟩ : BufTy).Contents (Elt Ideal)) (x1 : (⟨S1024x128x512, .f32⟩ : BufTy).Contents (Elt Ideal)) (x2 : (⟨S128x512, .f32⟩ : BufTy).Contents (Elt Ideal)) (x3 : (⟨S512x512, .f32⟩ : BufTy).Contents (Elt Ideal)) (x4 : (⟨S512, .f32⟩ : BufTy).Contents (Elt Ideal)) (x5 : (⟨S128x512, .f32⟩ : BufTy).Contents (Elt Ideal)) (x6 : (⟨S512x512, .f32⟩ : BufTy).Contents (Elt Ideal)) (x7 : (⟨S512, .f32⟩ : BufTy).Contents (Elt Ideal)) (x8 : (⟨S128x512, .f32⟩ : BufTy).Contents (Elt Ideal)) (x9 : (⟨S512x512, .f32⟩ : BufTy).Contents (Elt Ideal)) (x10 : (⟨S512, .f32⟩ : BufTy).Contents (Elt Ideal)) :
    val_main_v38 (F := Ideal) x0 x1 x2 x3 x4 x5 x6 x7 x8 x9 x10
      = rows (val_main_v0 (F := Ideal) x0) (val_main_v1 (F := Ideal) x1) x2 x3 x4 x5 x6 x7 x8 x9 x10 := by
  funext i
  obtain ⟨p, j, rfl⟩ : ∃ (p : Fin 131072) (j : Fin 512), i = ix2 p j := ⟨i 0, i 1, eq_ix2 i⟩
  show _ = cell (fun k => val_main_v0 (F := Ideal) x0 (ix2 p k)) (fun k => val_main_v1 (F := Ideal) x1 (ix2 p k))
    x2 x3 x4 x5 x6 x7 x8 x9 x10 j
  have elv2 : ∀ (q : Fin 131072) (c : Fin 512) (k : Fin 128), lidx_main_v2 (ix2 q c) k = ix2 q k := fun q c k =>
    funext fun a => by match a with | ⟨0, _⟩ => rfl | ⟨1, _⟩ => rfl
  have erv2 : ∀ (q : Fin 131072) (c : Fin 512) (k : Fin 128), ridx_main_v2 (ix2 q c) k = ix2 k c := fun q c k =>
    funext fun a => by match a with | ⟨0, _⟩ => rfl | ⟨1, _⟩ => rfl
  have elv3 : ∀ (q : Fin 131072) (c : Fin 512) (k : Fin 512), lidx_main_v3 (ix2 q c) k = ix2 q k := fun q c k =>
    funext fun a => by match a with | ⟨0, _⟩ => rfl | ⟨1, _⟩ => rfl
  have erv3 : ∀ (q : Fin 131072) (c : Fin 512) (k : Fin 512), ridx_main_v3 (ix2 q c) k = ix2 k c := fun q c k =>
    funext fun a => by match a with | ⟨0, _⟩ => rfl | ⟨1, _⟩ => rfl
  have elv14 : ∀ (q : Fin 131072) (c : Fin 512) (k : Fin 128), lidx_main_v14 (ix2 q c) k = ix2 q k := fun q c k =>
    funext fun a => by match a with | ⟨0, _⟩ => rfl | ⟨1, _⟩ => rfl
  have erv14 : ∀ (q : Fin 131072) (c : Fin 512) (k : Fin 128), ridx_main_v14 (ix2 q c) k = ix2 k c := fun q c k =>
    funext fun a => by match a with | ⟨0, _⟩ => rfl | ⟨1, _⟩ => rfl
  have elv15 : ∀ (q : Fin 131072) (c : Fin 512) (k : Fin 512), lidx_main_v15 (ix2 q c) k = ix2 q k := fun q c k =>
    funext fun a => by match a with | ⟨0, _⟩ => rfl | ⟨1, _⟩ => rfl
  have erv15 : ∀ (q : Fin 131072) (c : Fin 512) (k : Fin 512), ridx_main_v15 (ix2 q c) k = ix2 k c := fun q c k =>
    funext fun a => by match a with | ⟨0, _⟩ => rfl | ⟨1, _⟩ => rfl
  have elv26 : ∀ (q : Fin 131072) (c : Fin 512) (k : Fin 128), lidx_main_v26 (ix2 q c) k = ix2 q k := fun q c k =>
    funext fun a => by match a with | ⟨0, _⟩ => rfl | ⟨1, _⟩ => rfl
  have erv26 : ∀ (q : Fin 131072) (c : Fin 512) (k : Fin 128), ridx_main_v26 (ix2 q c) k = ix2 k c := fun q c k =>
    funext fun a => by match a with | ⟨0, _⟩ => rfl | ⟨1, _⟩ => rfl
  have elv28 : ∀ (q : Fin 131072) (c : Fin 512) (k : Fin 512), lidx_main_v28 (ix2 q c) k = ix2 q k := fun q c k =>
    funext fun a => by match a with | ⟨0, _⟩ => rfl | ⟨1, _⟩ => rfl
  have erv28 : ∀ (q : Fin 131072) (c : Fin 512) (k : Fin 512), ridx_main_v28 (ix2 q c) k = ix2 k c := fun q c k =>
    funext fun a => by match a with | ⟨0, _⟩ => rfl | ⟨1, _⟩ => rfl
  have ebv5 : ∀ (q : Fin 131072) (c : Fin 512), idx_main_v5 (idx_main_v6 (ix2 q c)) = ix1 c := fun q c =>
    funext fun a => by match a with | ⟨0, _⟩ => rfl
  have ebv17 : ∀ (q : Fin 131072) (c : Fin 512), idx_main_v17 (idx_main_v18 (ix2 q c)) = ix1 c := fun q c =>
    funext fun a => by match a with | ⟨0, _⟩ => rfl
  have ebv30 : ∀ (q : Fin 131072) (c : Fin 512), idx_main_v30 (idx_main_v31 (ix2 q c)) = ix1 c := fun q c =>
    funext fun a => by match a with | ⟨0, _⟩ => rfl
  simp only [val_main_v38_apply, val_main_v37_apply, val_main_v36_apply, val_main_v35_apply, val_main_v34_apply, val_main_cst_3_apply, val_main_v33_apply, val_main_v32_apply, val_main_v31_apply, val_main_v30_apply, val_main_v29_apply, val_main_v28_apply, val_main_v27_apply, val_main_v26_apply, val_main_v25_apply, val_main_v24_apply, val_main_cst_2_apply, val_main_v23_apply, val_main_v22_apply, val_main_cst_1_apply, val_main_v21_apply, val_main_v20_apply, val_main_v19_apply, val_main_v18_apply, val_main_v17_apply, val_main_v16_apply, val_main_v15_apply, val_main_v14_apply, val_main_v13_apply, val_main_v12_apply, val_main_cst_0_apply, val_main_v11_apply, val_main_v10_apply, val_main_cst_apply, val_main_v9_apply, val_main_v8_apply, val_main_v7_apply, val_main_v6_apply, val_main_v5_apply, val_main_v4_apply, val_main_v3_apply, val_main_v2_apply]
  simp only [elv2, erv2, elv3, erv3, elv14, erv14, elv15, erv15, elv26, erv26, elv28, erv28, ebv5, ebv17, ebv30,
    Ideal.ofBits_def, Ideal.addf_def, Ideal.subf_def, Ideal.mulf_def, Ideal.hostDivf_def, Ideal.hostUnary_exp_def,
    Ideal.hostNegf_def, Ideal.negf_def, Ideal.hostUnary_tanh_def, sigmoid_spelled_out]
  rfl

/-- The reference's result: its flattened result folded back to `[1024, 128, 512]`, the flattened input and state being
    the arguments flattened. -/
theorem result_eq (x0 : (⟨S1024x128x128, .f32⟩ : BufTy).Contents (Elt Ideal)) (x1 : (⟨S1024x128x512, .f32⟩ : BufTy).Contents (Elt Ideal)) (x2 : (⟨S128x512, .f32⟩ : BufTy).Contents (Elt Ideal)) (x3 : (⟨S512x512, .f32⟩ : BufTy).Contents (Elt Ideal)) (x4 : (⟨S512, .f32⟩ : BufTy).Contents (Elt Ideal)) (x5 : (⟨S128x512, .f32⟩ : BufTy).Contents (Elt Ideal)) (x6 : (⟨S512x512, .f32⟩ : BufTy).Contents (Elt Ideal)) (x7 : (⟨S512, .f32⟩ : BufTy).Contents (Elt Ideal)) (x8 : (⟨S128x512, .f32⟩ : BufTy).Contents (Elt Ideal)) (x9 : (⟨S512x512, .f32⟩ : BufTy).Contents (Elt Ideal)) (x10 : (⟨S512, .f32⟩ : BufTy).Contents (Elt Ideal)) :
    val_main_v39 (F := Ideal) x0 x1 x2 x3 x4 x5 x6 x7 x8 x9 x10
      = shapeCast S1024x128x512 (rows (shapeCast S131072x128 x0 shapeCasts_S1024x128x128_S131072x128)
          (shapeCast S131072x512 x1 shapeCasts_S1024x128x512_S131072x512) x2 x3 x4 x5 x6 x7 x8 x9 x10)
        shapeCasts_S131072x512_S1024x128x512 := by
  unfold val_main_v39
  rw [flat_eq]
  rfl

end Cert.Gru.Ref

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.CellBlock.lean ====
/-
  One block of the kernel's result is the gated recurrent cell of the block's rows.

  The body loads a block of 1024 rows of the flattened input and state and the nine parameter arrays whole, and stores
  one value. On the extended reals the narrowing of an operand to half precision before a product is the identity, a
  cast to the same shape is the identity, each matrix product into the zero accumulator is the plain sum over the
  contracted coordinate, a bias `[512]` viewed as `[1, 512]` and repeated down the rows reads the bias at the column, and
  the kernel's logistic operation is the logistic function. So entry `(y, j)` of the stored value is the cell of block
  row `y` at hidden unit `j`; the candidate's recurrent product contracts over the entries `(y, k)` of the reset gate
  times the state, which are the cell's inner terms.
-/
import proofs.«115552_j52450140619362_1_alg».proof.Proof.Gen.KernelIdeal.Skeleton
import proofs.«115552_j52450140619362_1_alg».proof.Proof.LibDot2
import proofs.«115552_j52450140619362_1_alg».proof.Proof.GruCell
import Idealize.ShloMosaic.Lib.ValueLayout
import Idealize.ShloMosaic.Lib.Pipeline.Value

noncomputable section

open scoped BigOperators

namespace Cert.Gru.Block

open Cert.KernelIdeal Cert.KernelIdeal.Gen Idealize.ShloMosaic Idealize.ShloMosaic.ValueIdx

/-! ## Which coordinate of each operand is the result's and which is contracted -/

theorem xw_lhs0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem xw_lhs1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem xw_rhs0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem xw_rhs1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

theorem hu_lhs0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem hu_lhs1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem hu_rhs0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem hu_rhs1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block of 1024 rows of 128 against a `[128, 512]` matrix, into zero: the sum over the 128 shared coordinates. -/
theorem xw_apply (a : FVec Ideal S1024x128 .bf16) (w : FVec Ideal S128x512 .bf16) (y : Fin 1024) (j : Fin 512) :
    matmul dot_S1024x128_S128x512_S1024x512_1_0_0_1_n_n none a w (constant (F := Ideal) S1024x512 .f32 0x00000000#32) (ix2 y j)
      = ∑ k : Fin 128, a (ix2 y k) * w (ix2 k j) :=
  Cert.Lib.Dot2.matmul_zero_ix2 dot_S1024x128_S128x512_S1024x512_1_0_0_1_n_n none rfl rfl xw_lhs0 xw_lhs1 xw_rhs0 xw_rhs1 a w y j

/-- A block of 1024 rows of 512 against a `[512, 512]` matrix, into zero: the sum over the 512 shared coordinates. -/
theorem hu_apply (A : FVec Ideal S1024x512 .bf16) (u : FVec Ideal S512x512 .bf16) (y : Fin 1024) (j : Fin 512) :
    matmul dot_S1024x512_S512x512_S1024x512_1_0_0_1_n_n none A u (constant (F := Ideal) S1024x512 .f32 0x00000000#32) (ix2 y j)
      = ∑ k : Fin 512, A (ix2 y k) * u (ix2 k j) :=
  Cert.Lib.Dot2.matmul_zero_ix2 dot_S1024x512_S512x512_S1024x512_1_0_0_1_n_n none rfl rfl hu_lhs0 hu_lhs1 hu_rhs0 hu_rhs1 A u y j

/-- What a gate applies its nonlinearity to, on a block: the two products and the repeated bias, at `(y, j)`. -/
theorem gate_apply (a : FVec Ideal S1024x128 .bf16) (A : FVec Ideal S1024x512 .bf16)
    (w : FVec Ideal S128x512 .bf16) (u : FVec Ideal S512x512 .bf16) (b : Vec Ideal S512 .f32) (y : Fin 1024) (j : Fin 512) :
    addf (addf (matmul dot_S1024x128_S128x512_S1024x512_1_0_0_1_n_n none a w (constant (F := Ideal) S1024x512 .f32 0x00000000#32))
          (matmul dot_S1024x512_S512x512_S1024x512_1_0_0_1_n_n none A u (constant (F := Ideal) S1024x512 .f32 0x00000000#32)))
        (broadcastTo S1024x512 (shapeCast S1x512 b shapeCasts_S512_S1x512) broadcasts_S1x512_S1024x512) (ix2 y j)
      = pre (fun k => a (ix2 y k)) (fun k => A (ix2 y k)) w u b j := by
  rw [addf_apply, addf_apply, xw_apply, hu_apply, broadcastTo_1b_ab_apply, shapeCast_a_1a_apply]
  rfl

/-! ## The loaded blocks under the identity casts and the narrowing -/

theorem state_cast (hb : Vec Ideal S1024x512 .f32) : k0_pay2 (F := Ideal) hb = hb := by
  unfold k0_pay2
  exact shapeCast_self _ _

theorem input_narrowed (xb : Vec Ideal S1024x128 .f32) : (k0_pay3 (F := Ideal) xb : S1024x128.Idx → EReal) = xb := by
  unfold k0_pay3
  rw [shapeCast_self]
  rfl

theorem state_narrowed (hb : Vec Ideal S1024x512 .f32) : (k0_pay4 (F := Ideal) hb : S1024x512.Idx → EReal) = hb := by
  unfold k0_pay4
  rw [state_cast]
  rfl

/-! ## The three intermediate values the body keeps -/

/-- The update gate's block at `(y, j)`. -/
theorem update_apply (xb : Vec Ideal S1024x128 .f32) (hb : Vec Ideal S1024x512 .f32) (w : Vec Ideal S128x512 .bf16) (u : Vec Ideal S512x512 .bf16) (b : Vec Ideal S512 .f32) (y : Fin 1024) (j : Fin 512) :
    k0_pay5 (F := Ideal) xb hb w u b (ix2 y j)
      = Ideal.logistic (pre (fun k => xb (ix2 y k)) (fun k => hb (ix2 y k)) w u b j) := by
  unfold k0_pay5
  refine (congrArg Ideal.logistic (gate_apply (k0_pay3 xb) (k0_pay4 hb) (shapeCast S128x512 w shapeCasts_S128x512_S128x512)
    (shapeCast S512x512 u shapeCasts_S512x512_S512x512) b y j)).trans ?_
  rw [shapeCast_self, shapeCast_self, input_narrowed, state_narrowed]

/-- The reset gate times the state, narrowed, at `(y, k)`. -/
theorem reset_state_apply (xb : Vec Ideal S1024x128 .f32) (hb : Vec Ideal S1024x512 .f32) (w : Vec Ideal S128x512 .bf16) (u : Vec Ideal S512x512 .bf16) (b : Vec Ideal S512 .f32) (y : Fin 1024) (k : Fin 512) :
    k0_pay6 (F := Ideal) xb hb w u b (ix2 y k)
      = Ideal.logistic (pre (fun k => xb (ix2 y k)) (fun k => hb (ix2 y k)) w u b k) * hb (ix2 y k) := by
  unfold k0_pay6
  refine (congrArg₂ (fun s v : EReal => s * v)
    (congrArg Ideal.logistic (gate_apply (k0_pay3 xb) (k0_pay4 hb) (shapeCast S128x512 w shapeCasts_S128x512_S128x512)
      (shapeCast S512x512 u shapeCasts_S512x512_S512x512) b y k))
    (congrFun (state_cast hb) (ix2 y k))).trans ?_
  rw [shapeCast_self, shapeCast_self, input_narrowed, state_narrowed]

/-! ## The stored value -/

/-- Entry `(y, j)` of the value the body stores is the cell of block row `y` at hidden unit `j`. -/
theorem stored_apply (xb : Vec Ideal S1024x128 .f32) (hb : Vec Ideal S1024x512 .f32) (wz : Vec Ideal S128x512 .bf16) (uz : Vec Ideal S512x512 .bf16) (bz : Vec Ideal S512 .f32) (wr : Vec Ideal S128x512 .bf16) (ur : Vec Ideal S512x512 .bf16) (br : Vec Ideal S512 .f32) (wh : Vec Ideal S128x512 .bf16) (uh : Vec Ideal S512x512 .bf16) (bh : Vec Ideal S512 .f32)
    (y : Fin 1024) (j : Fin 512) :
    k0_pay1 (F := Ideal) (k0_pay2 hb) (k0_pay5 xb hb wz uz bz) (k0_pay6 xb hb wr ur br) (k0_pay7 xb wh) uh bh (ix2 y j)
      = cell (fun k => xb (ix2 y k)) (fun k => hb (ix2 y k)) wz uz bz wr ur br wh uh bh j := by
  have hcand := gate_apply (k0_pay3 xb) (k0_pay6 xb hb wr ur br) (shapeCast S128x512 wh shapeCasts_S128x512_S128x512)
    (shapeCast S512x512 uh shapeCasts_S512x512_S512x512) bh y j
  have hrs : (fun k => k0_pay6 (F := Ideal) xb hb wr ur br (ix2 y k))
      = fun k => Ideal.logistic (pre (fun k => xb (ix2 y k)) (fun k => hb (ix2 y k)) wr ur br k) * hb (ix2 y k) :=
    funext fun k => reset_state_apply xb hb wr ur br y k
  refine (congrArg₂ (fun s v : EReal => s + v)
    (congrArg₂ (fun s v : EReal => s * v)
      (congrArg (fun s : EReal => Ideal.ofBits .f32 0x3F800000#32 - s) (update_apply xb hb wz uz bz y j))
      (congrFun (state_cast hb) (ix2 y j)))
    (congrArg₂ (fun s v : EReal => s * v) (update_apply xb hb wz uz bz y j) (congrArg Ideal.tanh hcand))).trans ?_
  rw [shapeCast_self, shapeCast_self, input_narrowed, hrs]
  rfl

end Cert.Gru.Block

end
-- ==== Proof.Tiles.lean ====
/-
  The kernel's blocks tile the flattened result.

  The grid has 128 points. At point `t` the input and state windows hold rows `1024 t … 1024 t + 1023` of the
  flattened arrays, all columns; the nine parameter windows hold their arrays whole at every point; and the result
  window's block is rows `1024 t … 1024 t + 1023` of the flattened result. By the block lemma the value stored at
  `(y, j)` of the block is the cell of block row `y`, which is row `1024 t + y` of the arrays: so what point `t` writes
  back is block `t` of ONE function of the arrays, `rows`. Row `p` lies in the block of point `p / 1024`, so the blocks
  cover the result, and the array ends holding `rows` of what the region found.
-/
import proofs.«115552_j52450140619362_1_alg».proof.Proof.Gen.KernelIdeal.Frame
import proofs.«115552_j52450140619362_1_alg».proof.Proof.CellBlock

set_option maxRecDepth 16384

noncomputable section

open scoped BigOperators

namespace Cert.Gru.Tiles

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-- The index maps over the grid: the input, state and result windows move down the rows with the point and stay at
    column block 0; every parameter window stays at block 0. -/
theorem index_maps : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_4.index t (0 : Fin 1) = 0
    ∧ win0_7.index t (0 : Fin 1) = 0
    ∧ win0_10.index t (0 : Fin 1) = 0
    ∧ win0_11.index t (0 : Fin 2) = t.val
    ∧ win0_11.index t (1 : Fin 2) = 0 :=
  (by decide +kernel : ∀ t : Fin grid0.N, _)

/-- What point `t` writes back is block `t` of `rows` of the arrays as the region finds them. -/
theorem flushed_eq (c : Dev nD) (t : Fin cfg0.N) :
    (dats m 0 c).flushed 11 t = ((cfg0.win 11).blk t).view.read (Elt Ideal) (rows (V m c main_v0) (V m c main_v1) (V m c main_v2) (V m c main_v3) (V m c main_arg4) (V m c main_v4) (V m c main_v5) (V m c main_arg7) (V m c main_v6) (V m c main_v7) (V m c main_arg10)) := by
  show (cfg0.win 11).cut (grid0.coords t) ((dats m 0 c).after 11 t) = _
  rw [after0_11]
  unfold out0_11
  rw [View.canon_unit_zero origin2]
  simp only [View.ld_unit_zero (S := S1024x128) origin2, View.ld_unit_zero (S := S1024x512) origin2,
    View.ld_unit_zero (S := S128x512) origin2, View.ld_unit_zero (S := S512x512) origin2, View.ld_unit_zero (S := S512) origin1]
  obtain ⟨e0r, e0c, e1r, e1c, e2r, e2c, e3r, e3c, e5r, e5c, e6r, e6c, e8r, e8c, e9r, e9c, e4, e7, e10, eor, eoc⟩ := index_maps t
  refine funext fun (y : S1024x512.Idx) => ?_
  refine ((congrArg (k0_pay1 (F := Ideal) (k0_pay2 (iblk m c 1 t)) (k0_pay5 (iblk m c 0 t) (iblk m c 1 t) (iblk m c 2 t) (iblk m c 3 t) (iblk m c 4 t))
      (k0_pay6 (iblk m c 0 t) (iblk m c 1 t) (iblk m c 5 t) (iblk m c 6 t) (iblk m c 7 t)) (k0_pay7 (iblk m c 0 t) (iblk m c 8 t)) (iblk m c 9 t) (iblk m c 10 t))
      (eq_ix2 y)).trans
    (Cert.Gru.Block.stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (y 0) (y 1))).trans ?_
  have hy0 : (y 0).val < 1024 := (y 0).isLt
  have hy1 : (y 1).val < 512 := (y 1).isLt
  have hx : (fun k : Fin 128 => iblk m c 0 t (ix2 (y 0) k))
      = fun k => V m c main_v0 (ix2 ((((cfg0.win 11).blk t).view.emb y) 0) k) := by
    funext k
    show V m c main_v0 (((cfg0.win 0).blk t).view.emb (ix2 (y 0) k)) = _
    refine congrArg (V m c main_v0) (funext fun a => Fin.ext ?_)
    match a with
    | ⟨0, _⟩ => show win0_0.index t (0 : Fin 2) * 1024 + 1 * (y 0).val = win0_11.index t (0 : Fin 2) * 1024 + 1 * (y 0).val; omega
    | ⟨1, _⟩ => show win0_0.index t (1 : Fin 2) * 128 + 1 * k.val = k.val; omega
  have hh : (fun k : Fin 512 => iblk m c 1 t (ix2 (y 0) k))
      = fun k => V m c main_v1 (ix2 ((((cfg0.win 11).blk t).view.emb y) 0) k) := by
    funext k
    show V m c main_v1 (((cfg0.win 1).blk t).view.emb (ix2 (y 0) k)) = _
    refine congrArg (V m c main_v1) (funext fun a => Fin.ext ?_)
    match a with
    | ⟨0, _⟩ => show win0_1.index t (0 : Fin 2) * 1024 + 1 * (y 0).val = win0_11.index t (0 : Fin 2) * 1024 + 1 * (y 0).val; omega
    | ⟨1, _⟩ => show win0_1.index t (1 : Fin 2) * 512 + 1 * k.val = k.val; omega
  have hw2 : (iblk m c 2 t : S128x512.Idx → EReal) = V m c main_v2 := by
    funext z
    show V m c main_v2 (((cfg0.win 2).blk t).view.emb z) = V m c main_v2 z
    refine congrArg (V m c main_v2) (funext fun a => Fin.ext ?_)
    match a with
    | ⟨0, _⟩ => show win0_2.index t (0 : Fin 2) * 128 + 1 * (z 0).val = (z 0).val; omega
    | ⟨1, _⟩ => show win0_2.index t (1 : Fin 2) * 512 + 1 * (z 1).val = (z 1).val; omega
  have hw3 : (iblk m c 3 t : S512x512.Idx → EReal) = V m c main_v3 := by
    funext z
    show V m c main_v3 (((cfg0.win 3).blk t).view.emb z) = V m c main_v3 z
    refine congrArg (V m c main_v3) (funext fun a => Fin.ext ?_)
    match a with
    | ⟨0, _⟩ => show win0_3.index t (0 : Fin 2) * 512 + 1 * (z 0).val = (z 0).val; omega
    | ⟨1, _⟩ => show win0_3.index t (1 : Fin 2) * 512 + 1 * (z 1).val = (z 1).val; omega
  have hw5 : (iblk m c 5 t : S128x512.Idx → EReal) = V m c main_v4 := by
    funext z
    show V m c main_v4 (((cfg0.win 5).blk t).view.emb z) = V m c main_v4 z
    refine congrArg (V m c main_v4) (funext fun a => Fin.ext ?_)
    match a with
    | ⟨0, _⟩ => show win0_5.index t (0 : Fin 2) * 128 + 1 * (z 0).val = (z 0).val; omega
    | ⟨1, _⟩ => show win0_5.index t (1 : Fin 2) * 512 + 1 * (z 1).val = (z 1).val; omega
  have hw6 : (iblk m c 6 t : S512x512.Idx → EReal) = V m c main_v5 := by
    funext z
    show V m c main_v5 (((cfg0.win 6).blk t).view.emb z) = V m c main_v5 z
    refine congrArg (V m c main_v5) (funext fun a => Fin.ext ?_)
    match a with
    | ⟨0, _⟩ => show win0_6.index t (0 : Fin 2) * 512 + 1 * (z 0).val = (z 0).val; omega
    | ⟨1, _⟩ => show win0_6.index t (1 : Fin 2) * 512 + 1 * (z 1).val = (z 1).val; omega
  have hw8 : (iblk m c 8 t : S128x512.Idx → EReal) = V m c main_v6 := by
    funext z
    show V m c main_v6 (((cfg0.win 8).blk t).view.emb z) = V m c main_v6 z
    refine congrArg (V m c main_v6) (funext fun a => Fin.ext ?_)
    match a with
    | ⟨0, _⟩ => show win0_8.index t (0 : Fin 2) * 128 + 1 * (z 0).val = (z 0).val; omega
    | ⟨1, _⟩ => show win0_8.index t (1 : Fin 2) * 512 + 1 * (z 1).val = (z 1).val; omega
  have hw9 : (iblk m c 9 t : S512x512.Idx → EReal) = V m c main_v7 := by
    funext z
    show V m c main_v7 (((cfg0.win 9).blk t).view.emb z) = V m c main_v7 z
    refine congrArg (V m c main_v7) (funext fun a => Fin.ext ?_)
    match a with
    | ⟨0, _⟩ => show win0_9.index t (0 : Fin 2) * 512 + 1 * (z 0).val = (z 0).val; omega
    | ⟨1, _⟩ => show win0_9.index t (1 : Fin 2) * 512 + 1 * (z 1).val = (z 1).val; omega
  have hw4 : (iblk m c 4 t : S512.Idx → EReal) = V m c main_arg4 := by
    funext z
    show V m c main_arg4 (((cfg0.win 4).blk t).view.emb z) = V m c main_arg4 z
    refine congrArg (V m c main_arg4) (funext fun a => Fin.ext ?_)
    match a with
    | ⟨0, _⟩ => show win0_4.index t (0 : Fin 1) * 512 + 1 * (z 0).val = (z 0).val; omega
  have hw7 : (iblk m c 7 t : S512.Idx → EReal) = V m c main_arg7 := by
    funext z
    show V m c main_arg7 (((cfg0.win 7).blk t).view.emb z) = V m c main_arg7 z
    refine congrArg (V m c main_arg7) (funext fun a => Fin.ext ?_)
    match a with
    | ⟨0, _⟩ => show win0_7.index t (0 : Fin 1) * 512 + 1 * (z 0).val = (z 0).val; omega
  have hw10 : (iblk m c 10 t : S512.Idx → EReal) = V m c main_arg10 := by
    funext z
    show V m c main_arg10 (((cfg0.win 10).blk t).view.emb z) = V m c main_arg10 z
    refine congrArg (V m c main_arg10) (funext fun a => Fin.ext ?_)
    match a with
    | ⟨0, _⟩ => show win0_10.index t (0 : Fin 1) * 512 + 1 * (z 0).val = (z 0).val; omega
  have hj : (y 1) = (((cfg0.win 11).blk t).view.emb y) 1 := Fin.ext (by
    show (y 1).val = win0_11.index t (1 : Fin 2) * 512 + 1 * (y 1).val; omega)
  show cell (fun k => iblk m c 0 t (ix2 (y 0) k)) (fun k => iblk m c 1 t (ix2 (y 0) k)) (iblk m c 2 t) (iblk m c 3 t) (iblk m c 4 t)
      (iblk m c 5 t) (iblk m c 6 t) (iblk m c 7 t) (iblk m c 8 t) (iblk m c 9 t) (iblk m c 10 t) (y 1)
    = cell (fun k => V m c main_v0 (ix2 ((((cfg0.win 11).blk t).view.emb y) 0) k)) (fun k => V m c main_v1 (ix2 ((((cfg0.win 11).blk t).view.emb y) 0) k))
      (V m c main_v2) (V m c main_v3) (V m c main_arg4) (V m c main_v4) (V m c main_v5) (V m c main_arg7) (V m c main_v6) (V m c main_v7) (V m c main_arg10)
      ((((cfg0.win 11).blk t).view.emb y) 1)
  rw [hx, hh, hw2, hw3, hw4, hw5, hw6, hw7, hw8, hw9, hw10, ← hj]

/-- An entry of the flattened result is in point `t`'s block iff each coordinate is in the block's range on its axis. -/
theorem mem_block (t : Fin cfg0.N) (i : S131072x512.Idx) :
    i ∈ ((cfg0.win 11).blk t).view.set ↔ ∀ a : Fin 2, win0_11.index t a * S1024x512.size a ≤ (i a).val ∧ (i a).val < win0_11.index t a * S1024x512.size a + S1024x512.size a := by
  show i ∈ ((View.whole main_v8).slice (win0_11.rect t)).set ↔ _
  rw [View.set_slice_whole, Rect.mem_set_unit]
  exact Iff.rfl

/-- Row `p` of the flattened result is in the block of point `p / 1024`. -/
theorem covered (i : S131072x512.Idx) : ∃ t : Fin cfg0.N, (cfg0.win 11).flush t = true ∧ i ∈ ((cfg0.win 11).blk t).view.set := by
  have hi0 : (i 0).val < 131072 := (i 0).isLt
  have hi1 : (i 1).val < 512 := (i 1).isLt
  obtain ⟨t, ht⟩ : ∃ t : Fin cfg0.N, t.val = (i 0).val / 1024 := ⟨⟨(i 0).val / 1024, by show (i 0).val / 1024 < 128; omega⟩, rfl⟩
  obtain ⟨e0r, e0c, e1r, e1c, e2r, e2c, e3r, e3c, e5r, e5c, e6r, e6c, e8r, e8c, e9r, e9c, e4, e7, e10, eor, eoc⟩ := index_maps t
  refine ⟨t, flush0_11 t, ?_⟩
  rw [mem_block]
  intro a
  match a with
  | ⟨0, _⟩ => show win0_11.index t (0 : Fin 2) * 1024 ≤ (i 0).val ∧ (i 0).val < win0_11.index t (0 : Fin 2) * 1024 + 1024; omega
  | ⟨1, _⟩ => show win0_11.index t (1 : Fin 2) * 512 ≤ (i 1).val ∧ (i 1).val < win0_11.index t (1 : Fin 2) * 512 + 512; omega

/-- The flattened result after the run: `rows` of the arrays as the region finds them. -/
theorem result_eq (c : Dev nD) : (dats m 0 c).arrAt 11 cfg0.N = rows (V m c main_v0) (V m c main_v1) (V m c main_v2) (V m c main_v3) (V m c main_arg4) (V m c main_v4) (V m c main_v5) (V m c main_arg7) (V m c main_v6) (V m c main_v7) (V m c main_arg10) :=
  (dats m 0 c).arrAt_eq_of_cover 11 _ (fun t _ => flushed_eq m c t) covered

end Cert.Gru.Tiles

end
-- ==== Proof.KernelRun.lean ====
/-
  The idealized kernel's run, with its result named.

  Before the region the host flattens the input `[1024, 128, 128]` and the state `[1024, 128, 512]` to
  `[131072, 128]` and `[131072, 512]` and narrows the six weight matrices to half precision, which on the extended
  reals changes nothing; the three biases reach the region as launched. After the region the host folds the flattened
  result `[131072, 512]` back to `[1024, 128, 512]`. So every weakly fair execution ends with the result holding the
  folded `rows` of the flattened input and state and the nine parameter arrays as launched, and the arguments as
  launched.
-/
import proofs.«115552_j52450140619362_1_alg».proof.Proof.Gen.KernelIdeal.Frame
import proofs.«115552_j52450140619362_1_alg».proof.Proof.Tiles
import Idealize.ShloMosaic.Lib.StableHlo.Run

set_option maxRecDepth 16384

noncomputable section

namespace Cert.Gru.Kernel

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ)

/-! ## What the region finds -/

/-- The flattened input. -/
theorem entry_input (c : Dev nD) :
    V m c main_v0 = shapeCast S131072x128 (m ((c.tc : Thread nD τ).loc main_arg0)) shapeCasts_S1024x128x128_S131072x128 := by
  show StableHlo.after hostOps0 (fun b => m (c, b)) (Proc.devRef .tc main_v0) = _
  after_results
  rfl

/-- The flattened state. -/
theorem entry_state (c : Dev nD) :
    V m c main_v1 = shapeCast S131072x512 (m ((c.tc : Thread nD τ).loc main_arg1)) shapeCasts_S1024x128x512_S131072x512 := by
  show StableHlo.after hostOps0 (fun b => m (c, b)) (Proc.devRef .tc main_v1) = _
  after_results
  rfl

/-- A narrowed weight matrix is the matrix. -/
theorem entry_wz (c : Dev nD) : (V m c main_v2 : S128x512.Idx → EReal) = m ((c.tc : Thread nD τ).loc main_arg2) := by
  show StableHlo.after hostOps0 (fun b => m (c, b)) (Proc.devRef .tc main_v2) = _
  after_results
  rfl

/-- A narrowed weight matrix is the matrix. -/
theorem entry_uz (c : Dev nD) : (V m c main_v3 : S512x512.Idx → EReal) = m ((c.tc : Thread nD τ).loc main_arg3) := by
  show StableHlo.after hostOps0 (fun b => m (c, b)) (Proc.devRef .tc main_v3) = _
  after_results
  rfl

/-- A narrowed weight matrix is the matrix. -/
theorem entry_wr (c : Dev nD) : (V m c main_v4 : S128x512.Idx → EReal) = m ((c.tc : Thread nD τ).loc main_arg5) := by
  show StableHlo.after hostOps0 (fun b => m (c, b)) (Proc.devRef .tc main_v4) = _
  after_results
  rfl

/-- A narrowed weight matrix is the matrix. -/
theorem entry_ur (c : Dev nD) : (V m c main_v5 : S512x512.Idx → EReal) = m ((c.tc : Thread nD τ).loc main_arg6) := by
  show StableHlo.after hostOps0 (fun b => m (c, b)) (Proc.devRef .tc main_v5) = _
  after_results
  rfl

/-- A narrowed weight matrix is the matrix. -/
theorem entry_wh (c : Dev nD) : (V m c main_v6 : S128x512.Idx → EReal) = m ((c.tc : Thread nD τ).loc main_arg8) := by
  show StableHlo.after hostOps0 (fun b => m (c, b)) (Proc.devRef .tc main_v6) = _
  after_results
  rfl

/-- A narrowed weight matrix is the matrix. -/
theorem entry_uh (c : Dev nD) : (V m c main_v7 : S512x512.Idx → EReal) = m ((c.tc : Thread nD τ).loc main_arg9) := by
  show StableHlo.after hostOps0 (fun b => m (c, b)) (Proc.devRef .tc main_v7) = _
  after_results
  rfl

/-! ## The fold after the region -/

/-- What the lines after the region leave in the result: the flattened result after the run, folded. -/
theorem folded (c : Dev nD) : Pipeline.afterTail₀ cfgs (dats m) 0 (V0 m) [hostOps1] c main_v9
    = shapeCast S1024x128x512 ((dats m 0 c).arrAt 11 cfg0.N) shapeCasts_S131072x512_S1024x128x512 := by
  unfold Pipeline.afterTail₀
  show StableHlo.after hostOps1 _ (Proc.devRef .tc main_v9) = _
  after_results
  exact congrArg (fun v : S131072x512.Idx → EReal => shapeCast S1024x128x512 v shapeCasts_S131072x512_S1024x128x512)
    (Pipeline.withArrays_arr spec0 launch0.win.arr_inj c (V0 m c) (fun w => (dats m 0 c).arrAt w cfg0.N) 11)

/-- The result after the run, as one function of the arguments as launched. -/
theorem result_eq (c : Dev nD) : Pipeline.afterTail₀ cfgs (dats m) 0 (V0 m) [hostOps1] c main_v9
    = shapeCast S1024x128x512 (rows (shapeCast S131072x128 (m ((c.tc : Thread nD τ).loc main_arg0)) shapeCasts_S1024x128x128_S131072x128) (shapeCast S131072x512 (m ((c.tc : Thread nD τ).loc main_arg1)) shapeCasts_S1024x128x512_S131072x512) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) shapeCasts_S131072x512_S1024x128x512 := by
  rw [folded, Cert.Gru.Tiles.result_eq, entry_input, entry_state, entry_wz, entry_uz, entry_wr, entry_ur, entry_wh, entry_uh,
    V_main_arg4, V_main_arg7, V_main_arg10]

/-! ## The run -/

/-- Every weakly fair execution terminates with the result at the folded `rows` of the arguments and the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v9)
          = shapeCast S1024x128x512 (rows (shapeCast S131072x128 (m ((c.tc : Thread nD τ).loc main_arg0)) shapeCasts_S1024x128x128_S131072x128) (shapeCast S131072x512 (m ((c.tc : Thread nD τ).loc main_arg1)) shapeCasts_S1024x128x512_S131072x512) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) shapeCasts_S131072x512_S1024x128x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v9 (Pipeline.mem_restRefs_of main_v9 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c)))⟩)
    (run_main m ρ)

end Cert.Gru.Kernel

end
-- ==== Proof.lean ====
/-
  The certificate of a gated recurrent cell computed by one pipelined kernel against its plain array reference.

  Both programs take an input `[1024, 128, 128]`, a state `[1024, 128, 512]`, three input weight matrices
  `[128, 512]`, three recurrent weight matrices `[512, 512]` and three biases `[512]`, flatten the leading two axes into
  131072 rows, and compute for every row

    z = σ (x W_z + h U_z + b_z),  r = σ (x W_r + h U_r + b_r),  h~ = tanh (x W_h + (r ∘ h) U_h + b_h),
    h' = (1 - z) ∘ h + z ∘ h~,

  then fold the rows back. The kernel walks the rows in 128 blocks of 1024 with the parameters resident, narrows the
  operands of its products to half precision, and uses one logistic operation; the reference works on whole arrays at
  single precision and spells the logistic function out as `1 / (1 + e^(-t))`. On the extended reals a change of format
  is the identity, a product into the zero accumulator and a contraction are the same plain sum, and the spelled-out
  quotient is the logistic function, so both results are the same function of the arguments, `rows`, folded: no
  finiteness of the inputs is needed for that, and the precondition is not opened.

  The frames of the two kernel programs are the generated ones; the reference's frame is its generated run with the
  result dropped; the idealization rewrote nothing, so there is nothing to preserve.
-/
import proofs.«115552_j52450140619362_1_alg».proof.Defs
import proofs.«115552_j52450140619362_1_alg».proof.Proof.Gen.Kernel
import proofs.«115552_j52450140619362_1_alg».proof.Proof.Gen.Kernel.Frame
import proofs.«115552_j52450140619362_1_alg».proof.Proof.Gen.KernelIdeal
import proofs.«115552_j52450140619362_1_alg».proof.Proof.Gen.KernelIdeal.Frame
import proofs.«115552_j52450140619362_1_alg».proof.Proof.Gen.ReferenceIdeal
import proofs.«115552_j52450140619362_1_alg».proof.Proof.Gen.ReferenceIdeal.Run
import proofs.«115552_j52450140619362_1_alg».proof.Proof.Gen.ReferenceIdeal.Read
import proofs.«115552_j52450140619362_1_alg».proof.Proof.Gen.Pre_finite_inputs
import proofs.«115552_j52450140619362_1_alg».proof.Proof.RefRows
import proofs.«115552_j52450140619362_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the folded `rows` of the arguments: the kernel by
    its blocks tiling the rows, the reference by its operations read one at a time. -/
theorem algebraic : Cert.algebraic_KernelIdeal_ReferenceIdeal := by
  intro m ρ m' ρ' _ hagree
  refine ⟨_, Cert.Gru.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  refine (Cert.Gru.Ref.result_eq
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))).trans ?_
  rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
